-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S600000 32) (main_arg2 : IVec S600000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S100000, .f32⟩
  | .hbm, ⟨13, _⟩ => ⟨S600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S100000x128, .f32⟩
  | .hbm, ⟨32, _⟩ => ⟨S600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S100000x128, .f32⟩
  | .hbm, ⟨50, _⟩ => ⟨S600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x64, .f32⟩
  | .hbm, ⟨56, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S_, .f32⟩
  | .hbm, ⟨57, _⟩ => ⟨S600000, .f32⟩
  | .hbm, ⟨58, _⟩ => ⟨S_, .f32⟩
  | .hbm, ⟨59, _⟩ => ⟨S100000, .f32⟩
  | .hbm, ⟨60, _⟩ => ⟨S600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KBlock.lean ====
/-
  The two linear-layer bodies, read at an index of their output block, at the ideal instance.
  A body loads a block of node features `h` and a block of neighbour means `nbr` (2000 rows of 128),
  the two weight matrices and the bias row, and stores
      h · W_self + nbr · W_neigh + b          (second layer, 64 columns)
      max (h · W_self + nbr · W_neigh + b) 0  (first layer, 128 columns).
  At the ideal instance the narrowing to bf16 is the identity and each MXU product into a zero
  accumulator is the plain sum over the contracted axis, so entry (r, c) of the stored block is
      Σ_k h[r,k]·W_self[k,c] + Σ_k nbr[r,k]·W_neigh[k,c] + b[0,c]
  (clamped below by 0 in the first layer).
-/
import proofs.«113686_j38225208934548_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.SL.Sem

/-- Row `j 0`, column `k` of a 2000×128 block: where the left operand of a product is read. -/
abbrev rowk1 (j : S2000x128.Idx) (k : Fin 128) : S2000x128.Idx := fun a => match a with
  | ⟨0, _⟩ => ⟨(j 0).val, (j 0).isLt⟩
  | ⟨1, _⟩ => ⟨k.val, k.isLt⟩
/-- Row `k`, column `j 1` of a 128×128 weight matrix: where the right operand is read. -/
abbrev kcol1 (j : S2000x128.Idx) (k : Fin 128) : S128x128.Idx := fun a => match a with
  | ⟨0, _⟩ => ⟨k.val, k.isLt⟩
  | ⟨1, _⟩ => ⟨(j 1).val, (j 1).isLt⟩
/-- The bias row's entry under column `j 1`. -/
abbrev brow1 (j : S2000x128.Idx) : S1x128.Idx := fun a => match a with
  | ⟨0, _⟩ => ⟨0, Nat.one_pos⟩
  | ⟨1, _⟩ => ⟨(j 1).val, (j 1).isLt⟩
/-- Row `j 0`, column `k` of a 2000×128 block, for an output index of the 64-column layer. -/
abbrev rowk2 (j : S2000x64.Idx) (k : Fin 128) : S2000x128.Idx := fun a => match a with
  | ⟨0, _⟩ => ⟨(j 0).val, (j 0).isLt⟩
  | ⟨1, _⟩ => ⟨k.val, k.isLt⟩
/-- Row `k`, column `j 1` of a 128×64 weight matrix. -/
abbrev kcol2 (j : S2000x64.Idx) (k : Fin 128) : S128x64.Idx := fun a => match a with
  | ⟨0, _⟩ => ⟨k.val, k.isLt⟩
  | ⟨1, _⟩ => ⟨(j 1).val, (j 1).isLt⟩
/-- The 64-wide bias row's entry under column `j 1`. -/
abbrev brow2 (j : S2000x64.Idx) : S1x64.Idx := fun a => match a with
  | ⟨0, _⟩ => ⟨0, Nat.one_pos⟩
  | ⟨1, _⟩ => ⟨(j 1).val, (j 1).isLt⟩

/-! ## The operand indices of the two products, axis by axis -/

theorem lhs_dot_S2000x128_S128x128_S2000x128_1_0_0_1_n_n_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_S2000x128_S128x128_S2000x128_1_0_0_1_n_n_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_dot_S2000x128_S128x128_S2000x128_1_0_0_1_n_n_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_dot_S2000x128_S128x128_S2000x128_1_0_0_1_n_n_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem lhs_dot_S2000x128_S128x64_S2000x64_1_0_0_1_n_n_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_dot_S2000x128_S128x64_S2000x64_1_0_0_1_n_n_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_dot_S2000x128_S128x64_S2000x64_1_0_0_1_n_n_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_dot_S2000x128_S128x64_S2000x64_1_0_0_1_n_n_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-! ## A product read at an index -/

/-- One MXU product into a zero accumulator, read at an output index: the sum over the 128 contracted
    positions of the left operand's row entry times the right operand's column entry. The bf16
    narrowing of both operands is the identity on extended reals. -/
theorem mm1_apply (a : Vec Ideal S2000x128 .f32) (w : Vec Ideal S128x128 .f32) (j : S2000x128.Idx) :
    matmul (F := Ideal) dot_S2000x128_S128x128_S2000x128_1_0_0_1_n_n none (truncf .bf16 a bitsLt_bf16_f32) (truncf .bf16 w bitsLt_bf16_f32) (constant (F := Ideal) S2000x128 .f32 0x00000000#32) j
      = ∑ k : Fin 128, a (rowk1 j k) * w (kcol1 j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowk1 j k := funext fun a => Fin.ext (by
    match a with
    | ⟨0, _⟩ => exact lhs_dot_S2000x128_S128x128_S2000x128_1_0_0_1_n_n_0 _ _
    | ⟨1, _⟩ => exact (lhs_dot_S2000x128_S128x128_S2000x128_1_0_0_1_n_n_1 _ _).trans hk)
  have er : dot_S2000x128_S128x128_S2000x128_1_0_0_1_n_n.rhsIdx j ((ValueIdx.contrEquiv1 dot_S2000x128_S128x128_S2000x128_1_0_0_1_n_n 128 rfl rfl).symm k) = kcol1 j k := funext fun a => Fin.ext (by
    match a with
    | ⟨0, _⟩ => exact (rhs_dot_S2000x128_S128x128_S2000x128_1_0_0_1_n_n_0 _ _).trans hk
    | ⟨1, _⟩ => exact rhs_dot_S2000x128_S128x128_S2000x128_1_0_0_1_n_n_1 _ _)
  rw [el, er]
  rfl

/-- One MXU product into a zero accumulator, read at an output index: the sum over the 128 contracted
    positions of the left operand's row entry times the right operand's column entry. The bf16
    narrowing of both operands is the identity on extended reals. -/
theorem mm2_apply (a : Vec Ideal S2000x128 .f32) (w : Vec Ideal S128x64 .f32) (j : S2000x64.Idx) :
    matmul (F := Ideal) dot_S2000x128_S128x64_S2000x64_1_0_0_1_n_n none (truncf .bf16 a bitsLt_bf16_f32) (truncf .bf16 w bitsLt_bf16_f32) (constant (F := Ideal) S2000x64 .f32 0x00000000#32) j
      = ∑ k : Fin 128, a (rowk2 j k) * w (kcol2 j k) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = rowk2 j k := funext fun a => Fin.ext (by
    match a with
    | ⟨0, _⟩ => exact lhs_dot_S2000x128_S128x64_S2000x64_1_0_0_1_n_n_0 _ _
    | ⟨1, _⟩ => exact (lhs_dot_S2000x128_S128x64_S2000x64_1_0_0_1_n_n_1 _ _).trans hk)
  have er : dot_S2000x128_S128x64_S2000x64_1_0_0_1_n_n.rhsIdx j ((ValueIdx.contrEquiv1 dot_S2000x128_S128x64_S2000x64_1_0_0_1_n_n 128 rfl rfl).symm k) = kcol2 j k := funext fun a => Fin.ext (by
    match a with
    | ⟨0, _⟩ => exact (rhs_dot_S2000x128_S128x64_S2000x64_1_0_0_1_n_n_0 _ _).trans hk
    | ⟨1, _⟩ => exact rhs_dot_S2000x128_S128x64_S2000x64_1_0_0_1_n_n_1 _ _)
  rw [el, er]
  rfl

/-! ## The bias row spread over the block -/

theorem bias1_apply (b : Vec Ideal S1x128 .f32) (j : S2000x128.Idx) :
    broadcastTo S2000x128 (shapeCast S1x128 b shapeCasts_S1x128_S1x128) broadcasts_S1x128_S2000x128 j = b (brow1 j) := by
  rw [shapeCast_self]
  exact broadcastTo_apply b broadcasts_S1x128_S2000x128 j (brow1 j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

theorem bias2_apply (b : Vec Ideal S1x64 .f32) (j : S2000x64.Idx) :
    broadcastTo S2000x64 (shapeCast S1x64 b shapeCasts_S1x64_S1x64) broadcasts_S1x64_S2000x64 j = b (brow2 j) := by
  rw [shapeCast_self]
  exact broadcastTo_apply b broadcasts_S1x64_S2000x64 j (brow2 j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-! ## The stored blocks -/

/-- First layer: entry `j` of the stored block is the clamped affine combination of row `j 0` of the
    feature block and of the neighbour-mean block. -/
theorem pay1_apply (h nbr : Vec Ideal S2000x128 .f32) (ws wn : Vec Ideal S128x128 .f32) (b : Vec Ideal S1x128 .f32)
    (j : S2000x128.Idx) :
    k0_pay1 (F := Ideal) h nbr ws wn b j
      = max ((∑ k : Fin 128, h (rowk1 j k) * ws (kcol1 j k)) + (∑ k : Fin 128, nbr (rowk1 j k) * wn (kcol1 j k)) + b (brow1 j))
          (Ideal.ofBits .f32 0x00000000#32) := by
  unfold k0_pay1
  show max (_ + _ + _) _ = _
  rw [shapeCast_self, mm1_apply, mm1_apply, bias1_apply]
  rfl

/-- Second layer: entry `j` of the stored block is the affine combination, 64 columns wide, not clamped. -/
theorem pay2_apply (h nbr : Vec Ideal S2000x128 .f32) (ws wn : Vec Ideal S128x64 .f32) (b : Vec Ideal S1x64 .f32)
    (j : S2000x64.Idx) :
    k1_pay1 (F := Ideal) h nbr ws wn b j
      = (∑ k : Fin 128, h (rowk2 j k) * ws (kcol2 j k)) + (∑ k : Fin 128, nbr (rowk2 j k) * wn (kcol2 j k)) + b (brow2 j) := by
  unfold k1_pay1
  show _ + _ + _ = _
  rw [shapeCast_self, shapeCast_self, mm2_apply, mm2_apply, bias2_apply]

/-! ## The layers over whole arrays

The same affine combinations with the node index ranging over all 100000 rows: what each region's output
array holds, block by block. -/

/-- Row `i 0`, column `k` of a 100000×128 array. -/
abbrev arow1 (i : S100000x128.Idx) (k : Fin 128) : S100000x128.Idx := fun a => match a with
  | ⟨0, _⟩ => ⟨(i 0).val, (i 0).isLt⟩
  | ⟨1, _⟩ => ⟨k.val, k.isLt⟩
/-- Row `k`, column `i 1` of a 128×128 weight matrix. -/
abbrev acol1 (i : S100000x128.Idx) (k : Fin 128) : S128x128.Idx := fun a => match a with
  | ⟨0, _⟩ => ⟨k.val, k.isLt⟩
  | ⟨1, _⟩ => ⟨(i 1).val, (i 1).isLt⟩
/-- The bias row's entry under column `i 1`. -/
abbrev abias1 (i : S100000x128.Idx) : S1x128.Idx := fun a => match a with
  | ⟨0, _⟩ => ⟨0, Nat.one_pos⟩
  | ⟨1, _⟩ => ⟨(i 1).val, (i 1).isLt⟩
/-- Row `i 0`, column `k` of a 100000×128 array, for an index of the 64-column result. -/
abbrev arow2 (i : S100000x64.Idx) (k : Fin 128) : S100000x128.Idx := fun a => match a with
  | ⟨0, _⟩ => ⟨(i 0).val, (i 0).isLt⟩
  | ⟨1, _⟩ => ⟨k.val, k.isLt⟩
/-- Row `k`, column `i 1` of a 128×64 weight matrix. -/
abbrev acol2 (i : S100000x64.Idx) (k : Fin 128) : S128x64.Idx := fun a => match a with
  | ⟨0, _⟩ => ⟨k.val, k.isLt⟩
  | ⟨1, _⟩ => ⟨(i 1).val, (i 1).isLt⟩
/-- The 64-wide bias row's entry under column `i 1`. -/
abbrev abias2 (i : S100000x64.Idx) : S1x64.Idx := fun a => match a with
  | ⟨0, _⟩ => ⟨0, Nat.one_pos⟩
  | ⟨1, _⟩ => ⟨(i 1).val, (i 1).isLt⟩

/-- The first layer over the whole node set: `max (h · W_self + nbr · W_neigh + b) 0`, entry by entry. -/
def dense1 (h nbr : S100000x128.Idx → EReal) (ws wn : S128x128.Idx → EReal) (b : S1x128.Idx → EReal) :
    S100000x128.Idx → EReal := fun i =>
  max ((∑ k : Fin 128, h (arow1 i k) * ws (acol1 i k)) + (∑ k : Fin 128, nbr (arow1 i k) * wn (acol1 i k)) + b (abias1 i))
    (Ideal.ofBits .f32 0x00000000#32)

/-- The second layer over the whole node set: `h · W_self + nbr · W_neigh + b`, 64 columns. -/
def dense2 (h nbr : S100000x128.Idx → EReal) (ws wn : S128x64.Idx → EReal) (b : S1x64.Idx → EReal) :
    S100000x64.Idx → EReal := fun i =>
  (∑ k : Fin 128, h (arow2 i k) * ws (acol2 i k)) + (∑ k : Fin 128, nbr (arow2 i k) * wn (acol2 i k)) + b (abias2 i)

end Cert.KernelIdeal.Block

end
-- ==== Proof.KLayer1.lean ====
/-
  Region 0 of the program (the first linear layer) as ONE function of the arrays it is entered with.
  Grid point `t` works on rows 2000·t … 2000·t + 1999: it reads that row block of the feature array and of the
  neighbour-mean array, both weight matrices and the bias row whole, and writes back the same row block of the
  output. So what point `t` writes back is block `t` of the layer applied to the whole arrays, the 50 blocks
  tile the 100000 rows, and the output array ends holding the layer of the entry arrays, entry by entry.
  Stated for ANY entry contents `V`; the run instantiates it at the contents the host operations leave.
-/
import proofs.«113686_j38225208934548_1_alg».proof.Proof.Gen.KernelIdeal.Frame
import proofs.«113686_j38225208934548_1_alg».proof.Proof.KBlock
import Idealize.ShloMosaic.Lib.Pipeline.Value

set_option maxRecDepth 16384

noncomputable section

namespace Cert.KernelIdeal.Layer1

open Cert.KernelIdeal Cert.KernelIdeal.Gen Cert.KernelIdeal.Block
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row `t`, column
    block 0; the weights and the bias are always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer of the entry arrays. -/
theorem flushed_eq (c : Dev nD) (t : Fin cfg0.N) :
    (dat0 V c).flushed 5 t = ((cfg0.win 5).blk t).view.read (Elt Ideal)
      (dense1 (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 3 t) (iblk0 V c 4 t) j
    = dense1 (V c main_arg0) (V c main_v20) (V c main_arg3) (V c main_arg4) (V c main_v21) (((cfg0.win 5).blk t).view.emb j)
  refine (pay1_apply (iblk0 V c 0 t) (iblk0 V c 1 t) (iblk0 V c 2 t) (iblk0 V c 3 t) (iblk0 V c 4 t) j).trans ?_
  have hb0 : ∀ k : Fin 128, iblk0 V c 0 t (rowk1 j k) = V c main_arg0 (arow1 (((cfg0.win 5).blk t).view.emb j) k) := fun k => by
    show V c main_arg0 (((cfg0.win 0).blk t).view.emb (rowk1 j k)) = _
    refine congrArg (V c main_arg0) (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  have hb1 : ∀ k : Fin 128, iblk0 V c 1 t (rowk1 j k) = V c main_v20 (arow1 (((cfg0.win 5).blk t).view.emb j) k) := fun k => by
    show V c main_v20 (((cfg0.win 1).blk t).view.emb (rowk1 j k)) = _
    refine congrArg (V c main_v20) (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  have hb2 : ∀ k : Fin 128, iblk0 V c 2 t (kcol1 j k) = V c main_arg3 (acol1 (((cfg0.win 5).blk t).view.emb j) k) := fun k => by
    show V c main_arg3 (((cfg0.win 2).blk t).view.emb (kcol1 j k)) = _
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have hb3 : ∀ k : Fin 128, iblk0 V c 3 t (kcol1 j k) = V c main_arg4 (acol1 (((cfg0.win 5).blk t).view.emb j) k) := fun k => by
    show V c main_arg4 (((cfg0.win 3).blk t).view.emb (kcol1 j k)) = _
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have hb4 : iblk0 V c 4 t (brow1 j) = V c main_v21 (abias1 (((cfg0.win 5).blk t).view.emb j)) := by
    show V c main_v21 (((cfg0.win 4).blk t).view.emb (brow1 j)) = _
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  simp only [dense1, hb0, hb1, hb2, hb3, hb4]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- Every row lies in the block of the point that is its quotient by 2000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE OUTPUT ARRAY after the region: the layer of the entry arrays. -/
theorem final (c : Dev nD) :
    (dat0 V c).arrAt 5 cfg0.N = dense1 (V c main_arg0) (V c main_v20) (V c main_arg3) (V c main_arg4) (V c main_v21) :=
  (dat0 V c).arrAt_eq_of_cover 5 _ (fun t _ => flushed_eq V c t) cover

end Cert.KernelIdeal.Layer1

end
-- ==== Proof.KLayer2.lean ====
/-
  Region 1 of the program (the second linear layer) as ONE function of the arrays it is entered with.
  Grid point `t` works on rows 2000·t … 2000·t + 1999: it reads that row block of the feature array and of the
  neighbour-mean array, both weight matrices and the bias row whole, and writes back the same row block of the
  output. So what point `t` writes back is block `t` of the layer applied to the whole arrays, the 50 blocks
  tile the 100000 rows, and the output array ends holding the layer of the entry arrays, entry by entry.
  Stated for ANY entry contents `V`; the run instantiates it at the contents the host operations leave.
-/
import proofs.«113686_j38225208934548_1_alg».proof.Proof.Gen.KernelIdeal.Frame
import proofs.«113686_j38225208934548_1_alg».proof.Proof.KBlock
import Idealize.ShloMosaic.Lib.Pipeline.Value

set_option maxRecDepth 16384

noncomputable section

namespace Cert.KernelIdeal.Layer2

open Cert.KernelIdeal Cert.KernelIdeal.Gen Cert.KernelIdeal.Block
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row `t`, column
    block 0; the weights and the bias are always block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the layer of the entry arrays. -/
theorem flushed_eq (c : Dev nD) (t : Fin cfg1.N) :
    (dat1 V c).flushed 5 t = ((cfg1.win 5).blk t).view.read (Elt Ideal)
      (dense2 (V c main_v22) (V c main_v35) (V c main_arg6) (V c main_arg7) (V c main_v36)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x64) hz, View.ld_unit_zero (S := S1x64) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = dense2 (V c main_v22) (V c main_v35) (V c main_arg6) (V c main_arg7) (V c main_v36) (((cfg1.win 5).blk t).view.emb j)
  refine (pay2_apply (iblk1 V c 0 t) (iblk1 V c 1 t) (iblk1 V c 2 t) (iblk1 V c 3 t) (iblk1 V c 4 t) j).trans ?_
  have hb0 : ∀ k : Fin 128, iblk1 V c 0 t (rowk2 j k) = V c main_v22 (arow2 (((cfg1.win 5).blk t).view.emb j) k) := fun k => by
    show V c main_v22 (((cfg1.win 0).blk t).view.emb (rowk2 j k)) = _
    refine congrArg (V c main_v22) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  have hb1 : ∀ k : Fin 128, iblk1 V c 1 t (rowk2 j k) = V c main_v35 (arow2 (((cfg1.win 5).blk t).view.emb j) k) := fun k => by
    show V c main_v35 (((cfg1.win 1).blk t).view.emb (rowk2 j k)) = _
    refine congrArg (V c main_v35) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * k.val = k.val; omega
  have hb2 : ∀ k : Fin 128, iblk1 V c 2 t (kcol2 j k) = V c main_arg6 (acol2 (((cfg1.win 5).blk t).view.emb j) k) := fun k => by
    show V c main_arg6 (((cfg1.win 2).blk t).view.emb (kcol2 j k)) = _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_5.index t (1 : Fin 2) * 64 + 1 * (j 1).val; omega
  have hb3 : ∀ k : Fin 128, iblk1 V c 3 t (kcol2 j k) = V c main_arg7 (acol2 (((cfg1.win 5).blk t).view.emb j) k) := fun k => by
    show V c main_arg7 (((cfg1.win 3).blk t).view.emb (kcol2 j k)) = _
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_5.index t (1 : Fin 2) * 64 + 1 * (j 1).val; omega
  have hb4 : iblk1 V c 4 t (brow2 j) = V c main_v36 (abias2 (((cfg1.win 5).blk t).view.emb j)) := by
    show V c main_v36 (((cfg1.win 4).blk t).view.emb (brow2 j)) = _
    refine congrArg (V c main_v36) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega
  simp only [dense2, hb0, hb1, hb2, hb3, hb4]

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v37).slice (win1_5.rect t)).set ↔ _
  rw [View.set_slice_whole, Rect.mem_set_unit]
  exact Iff.rfl

/-- Every row lies in the block of the point that is its quotient by 2000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE OUTPUT ARRAY after the region: the layer of the entry arrays. -/
theorem final (c : Dev nD) :
    (dat1 V c).arrAt 5 cfg1.N = dense2 (V c main_v22) (V c main_v35) (V c main_arg6) (V c main_arg7) (V c main_v36) :=
  (dat1 V c).arrAt_eq_of_cover 5 _ (fun t _ => flushed_eq V c t) cover

end Cert.KernelIdeal.Layer2

end
-- ==== Proof.KHost.lean ====
/-
  What the host operations leave in the arrays each region reads, as terms of the program's arguments.
  Before a linear layer the host forms the neighbour mean of the layer's input `h`:
      idx      = src, with a negative entry wrapped by the row count
      nbrSum   = the rows h[idx[e]] added into row dst[e], over all edges e   (gather, then scatter-add into zeros)
      deg      = ones added into position dst[e]
      invDeg   = 1 / max deg 1                       (computed once, before the first layer, and used by both)
      nbrMean  = nbrSum · invDeg, the row's factor spread over its 128 columns.
  The bias vector is re-laid as a one-row matrix. Nothing else the regions read is written by the host.
-/
import proofs.«113686_j38225208934548_1_alg».proof.Proof.Gen.KernelIdeal.Frame
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The gather's row indices: `src`, a negative entry wrapped by the row count, as a one-column matrix. -/
def srcIdx (src : (⟨S600000, .i32⟩ : BufTy).Contents (Elt F)) : (⟨S600000x1, .i32⟩ : BufTy).Contents (Elt F) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- `1 / max deg 1`, `deg` the number of edges into each node (ones scatter-added at `dst`). -/
def invDeg (dst : (⟨S600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S600000x1_S600000_n_0_0_1
        (broadcastInDim S100000 ![] bcast_S_S100000 (constant S_ .f32 0x00000000#32))
        (broadcastInDim S600000x1 ![0] bcast_S600000_S600000x1_0 dst)
        (broadcastInDim S600000 ![] bcast_S_S600000 (constant S_ .f32 0x3F800000#32)))
      (broadcastInDim S100000 ![] bcast_S_S100000 (constant S_ .f32 0x3F800000#32)))

/-- The rows of `h` at the source nodes, summed into their destination rows. -/
def nbrSum (h : (⟨S100000x128, .f32⟩ : BufTy).Contents (Elt F)) (src dst : (⟨S600000, .i32⟩ : BufTy).Contents (Elt F)) : (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 h (srcIdx src))

/-- The neighbour mean as the program forms it: the sum times the per-row factor `inv`. -/
def nbrMean (h : (⟨S100000x128, .f32⟩ : BufTy).Contents (Elt F)) (src dst : (⟨S600000, .i32⟩ : BufTy).Contents (Elt F)) (inv : (⟨S100000, .f32⟩ : BufTy).Contents (Elt F)) : (⟨S100000x128, .f32⟩ : BufTy).Contents (Elt F) :=
  mulf (nbrSum h src dst)
    (broadcastInDim S100000x128 ![0, 1] bcast_S100000x1_S100000x128_0_1 (broadcastInDim S100000x1 ![0] bcast_S100000_S100000x1_0 inv))

variable (m : (ℓ : Loc nD τ sig) → Buf (Elt F) ℓ) (ρ : Dev nD → PrngReg)

/-! ## At the first region's entry -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results

set_option maxHeartbeats 4000000 in
/-- The per-row factor, computed before the first region. -/
theorem W1_v7 (c : Dev nD) : W1 m ρ c (Proc.devRef .tc main_v7) = invDeg (F := F) (m ((c : Thread nD τ).loc main_arg2)) := by
  show StableHlo.after hostOps0 (W0 m ρ c) (Proc.devRef .tc main_v7) = _
  after_results_simp <;> rfl

set_option maxHeartbeats 4000000 in
/-- The first layer's neighbour mean: of the node features themselves. -/
theorem W1_v20 (c : Dev nD) : W1 m ρ c (Proc.devRef .tc main_v20)
    = nbrMean (F := F) (m ((c : Thread nD τ).loc main_arg0)) (m ((c : Thread nD τ).loc main_arg1)) (m ((c : Thread nD τ).loc main_arg2))
        (invDeg (F := F) (m ((c : Thread nD τ).loc main_arg2))) := by
  show StableHlo.after hostOps0 (W0 m ρ c) (Proc.devRef .tc main_v20) = _
  after_results_simp <;> rfl

set_option maxHeartbeats 4000000 in
/-- The first layer's bias, as a one-row matrix. -/
theorem W1_v21 (c : Dev nD) : W1 m ρ c (Proc.devRef .tc main_v21)
    = shapeCast S1x128 (m ((c : Thread nD τ).loc main_arg5)) shapeCasts_S128_S1x128 := by
  show StableHlo.after hostOps0 (W0 m ρ c) (Proc.devRef .tc main_v21) = _
  after_results_simp <;> rfl

/-! ## Across the first region: what it does not write stays -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_v7 (c : Dev nD) : W2 m ρ c (Proc.devRef .tc main_v7) = invDeg (F := F) (m ((c : Thread nD τ).loc main_arg2)) :=
  (W2_of_ne m ρ c main_v7 (by decide)).trans (W1_v7 m ρ c)
/-- The first region's output array, as its write-backs leave it. -/
theorem W2_v22 (c : Dev nD) : W2 m ρ c (Proc.devRef .tc main_v22) = (dat0 (V1 m ρ) c).arrAt 5 cfg0.N :=
  W2_arr m ρ c 5

/-! ## At the second region's entry -/

theorem W3_v22 (c : Dev nD) : W3 m ρ c (Proc.devRef .tc main_v22) = W2 m ρ c (Proc.devRef .tc main_v22) := by
  show StableHlo.after hostOps1 (W2 m ρ c) (Proc.devRef .tc main_v22) = _
  after_results
theorem W3_arg6 (c : Dev nD) : W3 m ρ c (Proc.devRef .tc main_arg6) = m ((c : Thread nD τ).loc main_arg6) := by
  show StableHlo.after hostOps1 (W2 m ρ c) (Proc.devRef .tc main_arg6) = _
  after_results; exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results; exact W2_arg7 m ρ c

set_option maxHeartbeats 4000000 in
/-- The second layer's neighbour mean: of the first region's output, with the same indices and factor. -/
theorem W3_v35 (c : Dev nD) : W3 m ρ c (Proc.devRef .tc main_v35)
    = nbrMean (F := F) (W2 m ρ c (Proc.devRef .tc main_v22)) (m ((c : Thread nD τ).loc main_arg1)) (m ((c : Thread nD τ).loc main_arg2))
        (invDeg (F := F) (m ((c : Thread nD τ).loc main_arg2))) := by
  show StableHlo.after hostOps1 (W2 m ρ c) (Proc.devRef .tc main_v35) = _
  after_results_simp
  rw [W2_arg1, W2_arg2, W2_v7]
  rfl

set_option maxHeartbeats 4000000 in
/-- The second layer's bias, as a one-row matrix. -/
theorem W3_v36 (c : Dev nD) : W3 m ρ c (Proc.devRef .tc main_v36)
    = shapeCast S1x64 (m ((c : Thread nD τ).loc main_arg8)) shapeCasts_S64_S1x64 := by
  show StableHlo.after hostOps1 (W2 m ρ c) (Proc.devRef .tc main_v36) = _
  after_results_simp
  rw [W2_arg8]
  rfl

end Cert.KernelIdeal.HostVals

end
-- ==== Proof.Bridge.lean ====
/-
  The program's value and the reference's are one function of the arguments, at the ideal instance.
  Both form, for a layer input `h`, the sum S of the rows h[src[e]] into row dst[e] and the in-degree deg;
  the reference divides S by max deg 1, the program multiplies S by 1 / max deg 1. On the extended reals
  `x / d = x · d⁻¹` for every d ≠ 0, and max deg 1 ≥ 1 is never 0, so `S · (1 / d) = S · (1 · d⁻¹) = S / d`
  whatever S is, infinite or not: no finiteness is used. The dense part is the same sum of products on both
  sides (the reference's two `dot_general`s and bias add, the program's layer), and the second layer repeats
  the first on the first layer's result.
-/
import proofs.«113686_j38225208934548_1_alg».proof.Proof.KBlock
import proofs.«113686_j38225208934548_1_alg».proof.Proof.KHost
import proofs.«113686_j38225208934548_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem
open Cert.KernelIdeal.Block Cert.KernelIdeal.HostVals Cert.ReferenceIdeal.Read

/-! ## Two facts about extended reals -/

/-- The word of `1.0f` denotes 1. -/
theorem one_f32 : Ideal.ofBits .f32 0x3F800000#32 = 1 := by
  simp [Ideal.ofBits, Ideal.ieee]
  first
    | (rw [← EReal.coe_mul, ← EReal.coe_one]; exact congrArg _ (by norm_num))
    | (norm_cast; norm_num)

/-- Multiplying by the reciprocal of `max x 1` is dividing by it, for every extended real `s`. -/
theorem mul_recip (s x : EReal) : s * Ideal.div 1 (max x 1) = Ideal.div s (max x 1) := by
  have hd : max x 1 ≠ 0 := ne_of_gt (lt_of_lt_of_le zero_lt_one (le_max_right x 1))
  unfold Ideal.div
  rw [if_neg hd, if_neg hd, one_mul]

/-! ## The neighbour mean -/

/-- The host's quotient of two arrays, read at an index. -/
theorem hostDivf_apply {s : Shape} (a b : FVec Ideal s .f32) (i : s.Idx) : Host.divf a b i = Ideal.div (a i) (b i) := rfl

/-- A per-row factor spread over the 128 columns, read at an index: the factor of the index's row. -/
theorem spread_apply (y : Cert.KernelIdeal.S100000.Idx → EReal) (i : Cert.KernelIdeal.S100000x128.Idx) :
    broadcastInDim Cert.KernelIdeal.S100000x128 ![0, 1] Cert.KernelIdeal.Gen.bcast_S100000x1_S100000x128_0_1
      (broadcastInDim Cert.KernelIdeal.S100000x1 ![0] Cert.KernelIdeal.Gen.bcast_S100000_S100000x1_0 y) i = y (idx_main_v16 (idx_main_v17 i)) := by
  rw [broadcastInDim_apply _ Cert.KernelIdeal.Gen.bcast_S100000x1_S100000x128_0_1 _ i (idx_main_v17 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ Cert.KernelIdeal.Gen.bcast_S100000_S100000x1_0 y (idx_main_v17 i) (idx_main_v16 (idx_main_v17 i)) (fun a => match a with
    | ⟨0, _⟩ => by show ((idx_main_v17 i) 0).val = if (100000 : Nat) = 1 then 0 else ((idx_main_v17 i) 0).val; rw [if_neg (by decide)])

/-! The shape records of the two programs are the same records. -/
theorem rec_sc2 : Cert.KernelIdeal.scatter_S100000x128_S600000x1_S600000x128_1_0_0_1 = Cert.ReferenceIdeal.scatter_S100000x128_S600000x1_S600000x128_1_0_0_1 := rfl
theorem rec_sc1 : Cert.KernelIdeal.scatter_S100000_S600000x1_S600000_n_0_0_1 = Cert.ReferenceIdeal.scatter_S100000_S600000x1_S600000_n_0_0_1 := rfl
theorem rec_ga : Cert.KernelIdeal.gather_S100000x128_S600000x1_S600000x128_1_0_n_n_0_1_1128 = Cert.ReferenceIdeal.gather_S100000x128_S600000x1_S600000x128_1_0_n_n_0_1_1128 := rfl

/-- The wrapped source indices are the reference's. -/
theorem srcIdx_eq (src : (⟨Cert.ReferenceIdeal.S600000, .i32⟩ : BufTy).Contents (Elt Ideal)) : srcIdx (F := Ideal) src = val_main_v5 (F := Ideal) src := by
  unfold srcIdx val_main_v5 val_main_v4 val_main_v3 val_main_v2 val_main_v1 val_main_v0 val_main_c val_main_c_0
  rfl

/-- The gathered and re-summed rows are the same array on both sides. -/
theorem nbrSum_eq (h : (⟨Cert.ReferenceIdeal.S100000x128, .f32⟩ : BufTy).Contents (Elt Ideal)) (src dst : (⟨Cert.ReferenceIdeal.S600000, .i32⟩ : BufTy).Contents (Elt Ideal)) :
    nbrSum (F := Ideal) h src dst = val_main_v9 (F := Ideal) h src dst := by
  unfold nbrSum val_main_v9 val_main_v8 val_main_v7 val_main_v6 val_main_cst
  rw [srcIdx_eq, rec_sc2, rec_ga]

/-- The in-degrees are the same array on both sides. -/
theorem deg_eq (dst : (⟨Cert.ReferenceIdeal.S600000, .i32⟩ : BufTy).Contents (Elt Ideal)) :
    Host.scatterAdd Cert.KernelIdeal.scatter_S100000_S600000x1_S600000_n_0_0_1
        (broadcastInDim Cert.KernelIdeal.S100000 ![] Cert.KernelIdeal.Gen.bcast_S_S100000 (constant (F := Ideal) Cert.KernelIdeal.S_ .f32 0x00000000#32))
        (broadcastInDim Cert.KernelIdeal.S600000x1 ![0] Cert.KernelIdeal.Gen.bcast_S600000_S600000x1_0 dst)
        (broadcastInDim Cert.KernelIdeal.S600000 ![] Cert.KernelIdeal.Gen.bcast_S_S600000 (constant (F := Ideal) Cert.KernelIdeal.S_ .f32 0x3F800000#32))
      = val_main_v13 (F := Ideal) dst := by
  unfold val_main_v13 val_main_v12 val_main_v11 val_main_v10 val_main_cst_1 val_main_cst_2
  rw [rec_sc1]

/-- A scalar constant spread over the nodes reads that constant at every node. -/
theorem splat_apply (b : BitVec 32) (k : Cert.KernelIdeal.S100000.Idx) :
    broadcastInDim Cert.KernelIdeal.S100000 ![] Cert.KernelIdeal.Gen.bcast_S_S100000 (constant (F := Ideal) Cert.KernelIdeal.S_ .f32 b) k = Ideal.ofBits .f32 b :=
  broadcastInDim_apply _ Cert.KernelIdeal.Gen.bcast_S_S100000 (constant (F := Ideal) Cert.KernelIdeal.S_ .f32 b) k (fun a => a.elim0) (fun a => a.elim0)

/-- The program's factor at a row is one over the reference's divisor there. -/
theorem invDeg_apply (dst : (⟨Cert.ReferenceIdeal.S600000, .i32⟩ : BufTy).Contents (Elt Ideal)) (k : Cert.ReferenceIdeal.S100000.Idx) :
    invDeg (F := Ideal) dst k = Ideal.div 1 (max (val_main_v13 (F := Ideal) dst k) 1) := by
  unfold invDeg
  rw [deg_eq]
  generalize val_main_v13 (F := Ideal) dst = D
  rw [hostDivf_apply, ValueIdx.maximumf_apply, splat_apply, one_f32]

/-- The reference's divisor at a row. -/
theorem divisor_apply (dst : (⟨Cert.ReferenceIdeal.S600000, .i32⟩ : BufTy).Contents (Elt Ideal)) (k : Cert.ReferenceIdeal.S100000.Idx) :
    val_main_v15 (F := Ideal) dst k = max (val_main_v13 (F := Ideal) dst k) 1 := by
  rw [val_main_v15_apply, val_main_v14_apply, val_main_cst_3_apply]
  generalize val_main_v13 (F := Ideal) dst k = X
  show max X (Ideal.ofBits .f32 0x3F800000#32) = _
  rw [one_f32]

/-- THE NEIGHBOUR MEAN: the sum times the reciprocal factor is the sum divided by `max deg 1`. -/
theorem nbrMean_eq (h : (⟨Cert.ReferenceIdeal.S100000x128, .f32⟩ : BufTy).Contents (Elt Ideal)) (src dst : (⟨Cert.ReferenceIdeal.S600000, .i32⟩ : BufTy).Contents (Elt Ideal)) :
    nbrMean (F := Ideal) h src dst (invDeg (F := Ideal) dst) = val_main_v18 (F := Ideal) h src dst := by
  funext i
  rw [val_main_v18_apply, val_main_v17_apply, val_main_v16_apply, divisor_apply, ← nbrSum_eq]
  unfold nbrMean
  generalize nbrSum (F := Ideal) h src dst = S
  rw [ValueIdx.mulf_apply, spread_apply, invDeg_apply]
  generalize val_main_v13 (F := Ideal) dst (idx_main_v16 (idx_main_v17 i)) = X
  exact mul_recip (S i) X

/-! The reference spells the index and divisor computations out once per layer; the two spellings are one term. -/
theorem zeros2_eq : val_main_v33 (F := Ideal) = val_main_v7 (F := Ideal) := by
  unfold val_main_v33 val_main_cst_6 val_main_v7 val_main_cst
  rfl
theorem dstcol2_eq (x : (⟨Cert.ReferenceIdeal.S600000, .i32⟩ : BufTy).Contents (Elt Ideal)) : val_main_v34 (F := Ideal) x = val_main_v8 (F := Ideal) x := by
  unfold val_main_v34 val_main_v8
  rfl
theorem srcIdx2_eq (x : (⟨Cert.ReferenceIdeal.S600000, .i32⟩ : BufTy).Contents (Elt Ideal)) : val_main_v31 (F := Ideal) x = val_main_v5 (F := Ideal) x := by
  unfold val_main_v31 val_main_v30 val_main_v29 val_main_v28 val_main_v27 val_main_v26 val_main_c_4 val_main_c_5
    val_main_v5 val_main_v4 val_main_v3 val_main_v2 val_main_v1 val_main_v0 val_main_c val_main_c_0
  rfl
theorem divisor2_eq (x : (⟨Cert.ReferenceIdeal.S600000, .i32⟩ : BufTy).Contents (Elt Ideal)) : val_main_v43 (F := Ideal) x = val_main_v17 (F := Ideal) x := by
  unfold val_main_v43 val_main_v42 val_main_v41 val_main_v40 val_main_v39 val_main_v38 val_main_v37 val_main_v36
    val_main_cst_7 val_main_cst_8 val_main_cst_9
    val_main_v17 val_main_v16 val_main_v15 val_main_v14 val_main_v13 val_main_v12 val_main_v11 val_main_v10
    val_main_cst_1 val_main_cst_2 val_main_cst_3
  rfl

/-- The second layer's neighbour mean in the reference is the first layer's construction on the first
    layer's result: the same indices, the same divisor. -/
theorem v44_eq (a0 : (⟨Cert.ReferenceIdeal.S100000x128, .f32⟩ : BufTy).Contents (Elt Ideal)) (a1 a2 : (⟨Cert.ReferenceIdeal.S600000, .i32⟩ : BufTy).Contents (Elt Ideal)) (a3 a4 : (⟨Cert.ReferenceIdeal.S128x128, .f32⟩ : BufTy).Contents (Elt Ideal)) (a5 : (⟨Cert.ReferenceIdeal.S128, .f32⟩ : BufTy).Contents (Elt Ideal)) :
    val_main_v44 (F := Ideal) a0 a1 a2 a3 a4 a5 = val_main_v18 (F := Ideal) (val_main_v25 (F := Ideal) a0 a1 a2 a3 a4 a5) a1 a2 := by
  unfold val_main_v44 val_main_v35 val_main_v32 val_main_v18 val_main_v9 val_main_v6
  rw [zeros2_eq, dstcol2_eq, srcIdx2_eq, divisor2_eq]

/-! ## The dense layers -/

/-- The bias vector re-laid as one row, read under a column. -/
theorem biasrow1_apply (a5 : (⟨Cert.ReferenceIdeal.S128, .f32⟩ : BufTy).Contents (Elt Ideal)) (i : Cert.KernelIdeal.S100000x128.Idx) :
    shapeCast Cert.KernelIdeal.S1x128 a5 Cert.KernelIdeal.Gen.shapeCasts_S128_S1x128 (abias1 i) = a5 (idx_main_v22 (idx_main_v23 i)) :=
  shapeCast_apply a5 Cert.KernelIdeal.Gen.shapeCasts_S128_S1x128 (abias1 i) (idx_main_v22 (idx_main_v23 i)) (by
    rw [Shape.rowMajor_val_two, Shape.rowMajor_val_one]; show (i 1).val = 0 * 128 + (i 1).val; omega)

theorem biasrow2_apply (a8 : (⟨Cert.ReferenceIdeal.S64, .f32⟩ : BufTy).Contents (Elt Ideal)) (i : Cert.KernelIdeal.S100000x64.Idx) :
    shapeCast Cert.KernelIdeal.S1x64 a8 Cert.KernelIdeal.Gen.shapeCasts_S64_S1x64 (abias2 i) = a8 (idx_main_v48 (idx_main_v49 i)) :=
  shapeCast_apply a8 Cert.KernelIdeal.Gen.shapeCasts_S64_S1x64 (abias2 i) (idx_main_v48 (idx_main_v49 i)) (by
    rw [Shape.rowMajor_val_two, Shape.rowMajor_val_one]; show (i 1).val = 0 * 64 + (i 1).val; omega)

/-- THE FIRST LAYER: the program's layer on the reference's neighbour mean is the reference's hidden array. -/
theorem layer1_eq (a0 : (⟨Cert.ReferenceIdeal.S100000x128, .f32⟩ : BufTy).Contents (Elt Ideal)) (a1 a2 : (⟨Cert.ReferenceIdeal.S600000, .i32⟩ : BufTy).Contents (Elt Ideal)) (a3 a4 : (⟨Cert.ReferenceIdeal.S128x128, .f32⟩ : BufTy).Contents (Elt Ideal)) (a5 : (⟨Cert.ReferenceIdeal.S128, .f32⟩ : BufTy).Contents (Elt Ideal)) :
    dense1 a0 (val_main_v18 (F := Ideal) a0 a1 a2) a3 a4 (shapeCast Cert.KernelIdeal.S1x128 a5 Cert.KernelIdeal.Gen.shapeCasts_S128_S1x128)
      = val_main_v25 (F := Ideal) a0 a1 a2 a3 a4 a5 := by
  funext i
  rw [val_main_v25_apply, val_main_v24_apply, val_main_v21_apply, val_main_v19_apply, val_main_v20_apply, val_main_v23_apply,
    val_main_v22_apply, val_main_call0_v0_apply, val_main_call0_cst_apply]
  generalize val_main_v18 (F := Ideal) a0 a1 a2 = N
  unfold dense1
  rw [biasrow1_apply]
  have hl19 : ∀ k : Fin 128, arow1 i k = lidx_main_v19 i k := fun k => funext fun a => Fin.ext (by
    match a with | ⟨0, _⟩ => rfl | ⟨1, _⟩ => rfl)
  have hr19 : ∀ k : Fin 128, acol1 i k = ridx_main_v19 i k := fun k => funext fun a => Fin.ext (by
    match a with | ⟨0, _⟩ => rfl | ⟨1, _⟩ => rfl)
  have hl20 : ∀ k : Fin 128, lidx_main_v20 i k = lidx_main_v19 i k := fun k => funext fun a => Fin.ext (by
    match a with | ⟨0, _⟩ => rfl | ⟨1, _⟩ => rfl)
  have hr20 : ∀ k : Fin 128, ridx_main_v20 i k = ridx_main_v19 i k := fun k => funext fun a => Fin.ext (by
    match a with | ⟨0, _⟩ => rfl | ⟨1, _⟩ => rfl)
  simp only [hl19, hr19, hl20, hr20]
  rfl

/-- THE SECOND LAYER: the program's layer on the reference's hidden array and its neighbour mean is the
    reference's result. -/
theorem layer2_eq (a0 : (⟨Cert.ReferenceIdeal.S100000x128, .f32⟩ : BufTy).Contents (Elt Ideal)) (a1 a2 : (⟨Cert.ReferenceIdeal.S600000, .i32⟩ : BufTy).Contents (Elt Ideal)) (a3 a4 : (⟨Cert.ReferenceIdeal.S128x128, .f32⟩ : BufTy).Contents (Elt Ideal)) (a5 : (⟨Cert.ReferenceIdeal.S128, .f32⟩ : BufTy).Contents (Elt Ideal))
    (a6 a7 : (⟨Cert.ReferenceIdeal.S128x64, .f32⟩ : BufTy).Contents (Elt Ideal)) (a8 : (⟨Cert.ReferenceIdeal.S64, .f32⟩ : BufTy).Contents (Elt Ideal)) :
    dense2 (val_main_v25 (F := Ideal) a0 a1 a2 a3 a4 a5) (val_main_v44 (F := Ideal) a0 a1 a2 a3 a4 a5) a6 a7
        (shapeCast Cert.KernelIdeal.S1x64 a8 Cert.KernelIdeal.Gen.shapeCasts_S64_S1x64)
      = val_main_v50 (F := Ideal) a0 a1 a2 a3 a4 a5 a6 a7 a8 := by
  funext i
  rw [val_main_v50_apply, val_main_v47_apply, val_main_v45_apply, val_main_v46_apply, val_main_v49_apply, val_main_v48_apply]
  generalize val_main_v25 (F := Ideal) a0 a1 a2 a3 a4 a5 = H
  generalize val_main_v44 (F := Ideal) a0 a1 a2 a3 a4 a5 = N
  unfold dense2
  rw [biasrow2_apply]
  have hl45 : ∀ k : Fin 128, arow2 i k = lidx_main_v45 i k := fun k => funext fun a => Fin.ext (by
    match a with | ⟨0, _⟩ => rfl | ⟨1, _⟩ => rfl)
  have hr45 : ∀ k : Fin 128, acol2 i k = ridx_main_v45 i k := fun k => funext fun a => Fin.ext (by
    match a with | ⟨0, _⟩ => rfl | ⟨1, _⟩ => rfl)
  have hl46 : ∀ k : Fin 128, lidx_main_v46 i k = lidx_main_v45 i k := fun k => funext fun a => Fin.ext (by
    match a with | ⟨0, _⟩ => rfl | ⟨1, _⟩ => rfl)
  have hr46 : ∀ k : Fin 128, ridx_main_v46 i k = ridx_main_v45 i k := fun k => funext fun a => Fin.ext (by
    match a with | ⟨0, _⟩ => rfl | ⟨1, _⟩ => rfl)
  simp only [hl45, hr45, hl46, hr46]
  rfl

/-! ## The whole program -/

/-- What the program computes, as one term of its nine arguments: the second layer of the first layer, each on
    its own neighbour mean. -/
def kernelValue (a0 : (⟨Cert.ReferenceIdeal.S100000x128, .f32⟩ : BufTy).Contents (Elt Ideal)) (a1 a2 : (⟨Cert.ReferenceIdeal.S600000, .i32⟩ : BufTy).Contents (Elt Ideal)) (a3 a4 : (⟨Cert.ReferenceIdeal.S128x128, .f32⟩ : BufTy).Contents (Elt Ideal)) (a5 : (⟨Cert.ReferenceIdeal.S128, .f32⟩ : BufTy).Contents (Elt Ideal))
    (a6 a7 : (⟨Cert.ReferenceIdeal.S128x64, .f32⟩ : BufTy).Contents (Elt Ideal)) (a8 : (⟨Cert.ReferenceIdeal.S64, .f32⟩ : BufTy).Contents (Elt Ideal)) : Cert.KernelIdeal.S100000x64.Idx → EReal :=
  dense2
    (dense1 a0 (nbrMean (F := Ideal) a0 a1 a2 (invDeg (F := Ideal) a2)) a3 a4 (shapeCast Cert.KernelIdeal.S1x128 a5 Cert.KernelIdeal.Gen.shapeCasts_S128_S1x128))
    (nbrMean (F := Ideal) (dense1 a0 (nbrMean (F := Ideal) a0 a1 a2 (invDeg (F := Ideal) a2)) a3 a4 (shapeCast Cert.KernelIdeal.S1x128 a5 Cert.KernelIdeal.Gen.shapeCasts_S128_S1x128))
      a1 a2 (invDeg (F := Ideal) a2))
    a6 a7 (shapeCast Cert.KernelIdeal.S1x64 a8 Cert.KernelIdeal.Gen.shapeCasts_S64_S1x64)

/-- THE TWO VALUES ARE ONE FUNCTION of the arguments. -/
theorem kernelValue_eq (a0 : (⟨Cert.ReferenceIdeal.S100000x128, .f32⟩ : BufTy).Contents (Elt Ideal)) (a1 a2 : (⟨Cert.ReferenceIdeal.S600000, .i32⟩ : BufTy).Contents (Elt Ideal)) (a3 a4 : (⟨Cert.ReferenceIdeal.S128x128, .f32⟩ : BufTy).Contents (Elt Ideal)) (a5 : (⟨Cert.ReferenceIdeal.S128, .f32⟩ : BufTy).Contents (Elt Ideal))
    (a6 a7 : (⟨Cert.ReferenceIdeal.S128x64, .f32⟩ : BufTy).Contents (Elt Ideal)) (a8 : (⟨Cert.ReferenceIdeal.S64, .f32⟩ : BufTy).Contents (Elt Ideal)) :
    kernelValue a0 a1 a2 a3 a4 a5 a6 a7 a8 = val_main_v50 (F := Ideal) a0 a1 a2 a3 a4 a5 a6 a7 a8 := by
  unfold kernelValue
  rw [nbrMean_eq, layer1_eq, nbrMean_eq, ← v44_eq, layer2_eq]

end Cert.Bridge

end
-- ==== Proof.KValue.lean ====
/-
  What the program's result array holds after the run, as one term of the arguments.
  The first region leaves in its output array the first layer of (the node features, their neighbour mean);
  the host then forms the neighbour mean of that array with the same indices and the same per-row factor;
  the second region leaves in the result array the second layer of (that array, its neighbour mean).
-/
import proofs.«113686_j38225208934548_1_alg».proof.Proof.KLayer1
import proofs.«113686_j38225208934548_1_alg».proof.Proof.KLayer2
import proofs.«113686_j38225208934548_1_alg».proof.Proof.KHost
import proofs.«113686_j38225208934548_1_alg».proof.Proof.Bridge

set_option maxRecDepth 16384

noncomputable section

namespace Cert.KernelIdeal.Result

open Cert.KernelIdeal Cert.KernelIdeal.Gen Cert.KernelIdeal.Block Cert.KernelIdeal.HostVals
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The hidden array (the first region's output) after the first region. -/
theorem hidden (c : Dev nD) : W2 m ρ c (Proc.devRef .tc main_v22)
    = dense1 (m ((c : Thread nD τ).loc main_arg0))
        (nbrMean (F := Ideal) (m ((c : Thread nD τ).loc main_arg0)) (m ((c : Thread nD τ).loc main_arg1)) (m ((c : Thread nD τ).loc main_arg2))
          (invDeg (F := Ideal) (m ((c : Thread nD τ).loc main_arg2))))
        (m ((c : Thread nD τ).loc main_arg3)) (m ((c : Thread nD τ).loc main_arg4))
        (shapeCast S1x128 (m ((c : Thread nD τ).loc main_arg5)) shapeCasts_S128_S1x128) := by
  rw [W2_v22, Layer1.final (V1 m ρ) c]
  show dense1 (W1 m ρ c (Proc.devRef .tc main_arg0)) (W1 m ρ c (Proc.devRef .tc main_v20)) (W1 m ρ c (Proc.devRef .tc main_arg3))
    (W1 m ρ c (Proc.devRef .tc main_arg4)) (W1 m ρ c (Proc.devRef .tc main_v21)) = _
  rw [W1_arg0, W1_v20, W1_arg3, W1_arg4, W1_v21]

/-- THE RESULT ARRAY at the end of the run. -/
theorem result (c : Dev nD) : W4 m ρ c (Proc.devRef .tc main_v37)
    = Cert.Bridge.kernelValue (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  rw [show W4 m ρ c (Proc.devRef .tc main_v37) = (dat1 (V3 m ρ) c).arrAt 5 cfg1.N from W4_arr m ρ c 5, Layer2.final (V3 m ρ) c]
  show dense2 (W3 m ρ c (Proc.devRef .tc main_v22)) (W3 m ρ c (Proc.devRef .tc main_v35)) (W3 m ρ c (Proc.devRef .tc main_arg6))
    (W3 m ρ c (Proc.devRef .tc main_arg7)) (W3 m ρ c (Proc.devRef .tc main_v36)) = _
  rw [W3_v22, W3_v35, W3_arg6, W3_arg7, W3_v36, hidden]
  rfl

end Cert.KernelIdeal.Result

end
-- ==== Proof.lean ====
/-
  Two stacked mean-aggregation graph layers with a clamp between them:
      layer(h) = h · W_self + mean_nbr(h) · W_neigh + b,     result = layer₂ (max (layer₁ x) 0),
  where mean_nbr(h) is, row by row, the sum of the rows of h at the sources of the edges into that node divided
  by max (in-degree) 1. The program forms the sums and the degrees with the same gather and scatter-add as the
  reference, multiplies by 1 / max deg 1 where the reference divides by max deg 1, and runs each layer's dense
  part on 50 row blocks of 2000 nodes with bf16 operands and an f32 accumulator.

  At the ideal instance the narrowing is the identity and a product into a zero accumulator is the plain sum, so a
  block's rows are the layer's rows (Proof/KBlock.lean); the blocks tile the node set, so each region's output
  array is the layer of the arrays it is entered with (Proof/KLayer1.lean, Proof/KLayer2.lean); the host
  operations leave the neighbour means in those arrays (Proof/KHost.lean); the run ends with the result array at
  the second region's output (Proof/KRun.lean, Proof/KValue.lean). On the extended reals dividing by d ≠ 0 is
  multiplying by d⁻¹ and max deg 1 is never 0, so the two neighbour means are equal entry by entry with no
  finiteness assumed, and the two programs compute one function of their arguments (Proof/Bridge.lean). The
  reference's run and its stages read at an index are the generated modules Gen/ReferenceIdeal/Run.lean and Read.lean.
-/
import proofs.«113686_j38225208934548_1_alg».proof.Defs
import proofs.«113686_j38225208934548_1_alg».proof.Proof.Gen.Kernel
import proofs.«113686_j38225208934548_1_alg».proof.Proof.Gen.Kernel.Skeleton
import proofs.«113686_j38225208934548_1_alg».proof.Proof.Gen.Kernel.Launch
import proofs.«113686_j38225208934548_1_alg».proof.Proof.Gen.Kernel.Points
import proofs.«113686_j38225208934548_1_alg».proof.Proof.Gen.Kernel.Frame
import proofs.«113686_j38225208934548_1_alg».proof.Proof.Gen.KernelIdeal
import proofs.«113686_j38225208934548_1_alg».proof.Proof.Gen.KernelIdeal.Skeleton
import proofs.«113686_j38225208934548_1_alg».proof.Proof.Gen.KernelIdeal.Launch
import proofs.«113686_j38225208934548_1_alg».proof.Proof.Gen.KernelIdeal.Points
import proofs.«113686_j38225208934548_1_alg».proof.Proof.Gen.KernelIdeal.Frame
import proofs.«113686_j38225208934548_1_alg».proof.Proof.Gen.ReferenceIdeal
import proofs.«113686_j38225208934548_1_alg».proof.Proof.Gen.Pre_finite_inputs
import proofs.«113686_j38225208934548_1_alg».proof.Proof.Gen.ReferenceIdeal.Run
import proofs.«113686_j38225208934548_1_alg».proof.Proof.Gen.ReferenceIdeal.Read
import proofs.«113686_j38225208934548_1_alg».proof.Proof.KRun
import proofs.«113686_j38225208934548_1_alg».proof.Proof.KValue
import proofs.«113686_j38225208934548_1_alg».proof.Proof.Bridge
import Idealize.ShloMosaic.Adequacy
import Idealize.ShloMosaic.Init

noncomputable section

namespace Cert.Proof

open Idealize.ShloMosaic Idealize.SL.Sem

/-- The word-level program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the result array at the same function
    of the arguments. -/
theorem algebraic : Cert.algebraic_KernelIdeal_ReferenceIdeal := by
  intro m ρ m' ρ' _ hagree
  refine ⟨fun c => Cert.Bridge.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v50_eq, h0, h1, h2, h3, h4, h5, h6, h7, h8]
    exact (Cert.Bridge.kernelValue_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
